-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x832 : Shape := ⟨2, ![16384, 832]⟩
abbrev S256x832 : Shape := ⟨2, ![256, 832]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S16384x832 : S_.BroadcastsInDim S16384x832 (![] : Fin 0 → Fin S16384x832.rank)
  reducesTo_S16384x832_S_d0_1 : S16384x832.ReducesTo [0, 1] S_
  h_S_ : 0 < S_.numel
  bcast_S_S256x832 : S_.BroadcastsInDim S256x832 (![] : Fin 0 → Fin S256x832.rank)
  reducesTo_S256x832_S_d0_1 : S256x832.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32 .f32) (main_arg5 : FVec F S1x32 .f32) (main_arg6 : FVec F S1 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg5
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x832 .f32) (main_arg1 : FVec F S256x832 .f32) (main_arg2 : FVec F S256 .f32) (main_arg3 : FVec F S32x256 .f32) (main_arg4 : FVec F S32 .f32) (main_arg5 : FVec F S1x32 .f32) (main_arg6 : FVec F S1 .f32) : IVec S_ 1 :=
  let main_v0 : FVec F S16384x832 .f32 := Host.absf main_arg0
  let main_cst : FVec F S_ .f32 := constant S_ .f32 0x7F800000#32
  let main_v1 : FVec F S16384x832 .f32 := broadcastInDim S16384x832 ![] bcast_S_S16384x832 main_cst
  let main_v2 : IVec S16384x832 1 := cmpf .olt main_v0 main_v1
  let main_c : IVec S_ 1 := constantI S_ 1 1#1
  let main_v3 : IVec S_ 1 := (fun x v => Host.reduce IntOp.andi x v reducesTo_S16384x832_S_d0_1 h_S_) main_v2 main_c
  let main_v4 : FVec F S256x832 .f32 := Host.absf main_arg1
  let main_cst_0 : FVec F S_ .f32 := constant S_ .f32 0x7F800000#32
  let main_v5 : FVec F S256x832 .f32 := broadcastInDim S256x832 ![] bcast_S_S256x832 main_cst_0
  let main_v6 : IVec S256x832 1 := cmpf .olt main_v4 main_v5
  let main_c_1 : IVec S_ 1 := constantI S_ 1 1#1
  let main_v7 : IVec S_ 1 := (fun x v => Host.reduce IntOp.andi x v reducesTo_S256x832_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_arg5 main_arg6 main_v13 main_v16
-- ==== Kernel.lean ====
abbrev S16384x832 : Shape := ⟨2, ![16384, 832]⟩
abbrev S256x832 : Shape := ⟨2, ![256, 832]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S832x16384 : Shape := ⟨2, ![832, 16384]⟩
abbrev S832x256 : Shape := ⟨2, ![832, 256]⟩
abbrev S1x256 : Shape := ⟨2, ![1, 256]⟩
abbrev S1x1 : Shape := ⟨2, ![1, 1]⟩
abbrev S1x16384 : Shape := ⟨2, ![1, 16384]⟩
abbrev S832x4096 : Shape := ⟨2, ![832, 4096]⟩
abbrev S1x4096 : Shape := ⟨2, ![1, 4096]⟩
abbrev S256x1 : Shape := ⟨2, ![256, 1]⟩
abbrev S32x1 : Shape := ⟨2, ![32, 1]⟩
abbrev S256x4096 : Shape := ⟨2, ![256, 4096]⟩
abbrev S32x4096 : Shape := ⟨2, ![32, 4096]⟩
abbrev S4096 : Shape := ⟨1, ![4096]⟩
abbrev S16384x1 : Shape := ⟨2, ![16384, 1]⟩

abbrev nBuf : Space → Nat
  | .hbm => 14
  | .vmem => 10
  | .smem => 0
  | _ => 0

abbrev bufTy : (tb : Table) → Fin (tcTables nBuf tb) → BufTy
  | .hbm, ⟨0, _⟩ => ⟨S16384x832, .f32⟩
  | .hbm, ⟨1, _⟩ => ⟨S256x832, .f32⟩
  | .hbm, ⟨2, _⟩ => ⟨S256, .f32⟩
  | .hbm, ⟨3, _⟩ => ⟨S32x256, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S832x16384, .f32⟩
  | .hbm, ⟨8, _⟩ => ⟨S832x256, .f32⟩
  | .hbm, ⟨9, _⟩ => ⟨S1x256, .f32⟩
  | .hbm, ⟨10, _⟩ => ⟨S1x32, .f32⟩
  | .hbm, ⟨11, _⟩ => ⟨S1x1, .f32⟩
  | .hbm, ⟨12, _⟩ => ⟨S1x16384, .f32⟩
  | .hbm, ⟨13, _⟩ => ⟨S16384x1, .f32⟩
  | .local _ .vmem, ⟨0, _⟩ => ⟨S832x4096, .f32⟩
  | .local _ .vmem, ⟨1, _⟩ => ⟨S832x4096, .f32⟩
  | .local _ .vmem, ⟨2, _⟩ => ⟨S832x256, .f32⟩
  | .local _ .vmem, ⟨3, _⟩ => ⟨S1x256, .f32⟩
  | .local _ .vmem, ⟨4, _⟩ => ⟨S32x256, .f32⟩
  | .local _ .vmem, ⟨5, _⟩ => ⟨S1x32, .f32⟩
  | .local _ .vmem, ⟨6, _⟩ => ⟨S1x32, .f32⟩
  | .local _ .vmem, ⟨7, _⟩ => ⟨S1x1, .f32⟩
  | .local _ .vmem, ⟨8, _⟩ => ⟨S1x4096, .f32⟩
  | .local _ .vmem, ⟨9, _⟩ => ⟨S1x4096, .f32⟩
  | _, _ => ⟨S16384x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S832x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S832x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S16384x832_S832x16384_1_0 : S16384x832.Transposes [1, 0] S832x16384
  transposes_S256x832_S832x256_1_0 : S256x832.Transposes [1, 0] S832x256
  shapeCasts_S256_S1x256 : S256.ShapeCasts S1x256
  shapeCasts_S32_S1x32 : S32.ShapeCasts S1x32
  shapeCasts_S1_S1x1 : S1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S1x32_p1_0_S32x1 : S1x32.Transposes [1, 0] S32x1
  inb_S832x4096_S832x4096_0_0 : ∀ a, (![0, 0] : Fin 2 → Nat) a + S832x4096.size a ≤ S832x4096.size a
  h_S832x4096 : 0 < S832x4096.numel
  shapeCasts_S832x4096_S832x4096 : S832x4096.ShapeCasts S832x4096
  bitsLt_bf16_f32 : FTy.bits .bf16 < FTy.bits .f32
  inb_S832x256_S832x256_0_0 : ∀ a, (![0, 0] : Fin 2 → Nat) a + S832x256.size a ≤ S832x256.size a
  h_S832x256 : 0 < S832x256.numel
  shapeCasts_S832x256_S832x256 : S832x256.ShapeCasts S832x256
  broadcasts_S256x1_S256x4096 : S256x1.Broadcasts S256x4096
  inb_S32x256_S32x256_0_0 : ∀ a, (![0, 0] : Fin 2 → Nat) a + S32x256.size a ≤ S32x256.size a
  h_S32x256 : 0 < S32x256.numel
  broadcasts_S32x1_S32x4096 : S32x1.Broadcasts S32x4096
  reduces_S32x4096_S4096 : S32x4096.Reduces [0] S4096
  shapeCasts_S4096_S1x4096 : S4096.ShapeCasts S1x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x4096_S1x4096_0_0 : ∀ a, (![0, 0] : Fin 2 → Nat) a + S1x4096.size a ≤ S1x4096.size a
  h_S1x4096 : 0 < S1x4096.numel
  shapeCasts_S1x16384_S16384x1 : S1x16384.ShapeCasts S16384x1
  dot_S832x256_S832x4096_S256x4096_0_0_1_1_n_n_wf : DotDims.WF S832x256 S832x4096 S256x4096 [0] [0] [1] [1] [] []
  dot_S32x256_S256x4096_S32x4096_1_0_0_1_n_n_wf : DotDims.WF S32x256 S256x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S832x4096.size a ≤ S832x16384.size a
  hwx0_0 : ∀ i : grid0.Coords, EltTy.bits .f32 = 32 ∨ (Rect.block (s := S832x16384) S832x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S832x256.size a ≤ S832x256.size a
  hwx0_1 : ∀ i : grid0.Coords, EltTy.bits .f32 = 32 ∨ (Rect.block (s := S832x256) S832x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x16384.size a
  hwx0_7 : ∀ i : grid0.Coords, EltTy.bits .f32 = 32 ∨ (Rect.block (s := S1x16384) S1x4096.size (cc0_transform_7 i) (hinb0_7 i)).WholeWords (EltTy.packing .f32)

variable [Facts₀]

def dot_S832x256_S832x4096_S256x4096_0_0_1_1_n_n : DotDims S832x256 S832x4096 S256x4096 where
  lhsContracting := [0]
  rhsContracting := [0]
  lhsNonContracting := [1]
  rhsNonContracting := [1]
  lhsBatch := []
  rhsBatch := []
  wf := dot_S832x256_S832x4096_S256x4096_0_0_1_1_n_n_wf
def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf

abbrev win0_0 : Pipeline.Window sig grid0 :=
  Pipeline.Window.ofSpec (Memref.whole main_v0) S832x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S832x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x832 : Shape := ⟨2, ![16384, 832]⟩
abbrev S256x832 : Shape := ⟨2, ![256, 832]⟩
abbrev S256 : Shape := ⟨1, ![256]⟩
abbrev S32x256 : Shape := ⟨2, ![32, 256]⟩
abbrev S32 : Shape := ⟨1, ![32]⟩
abbrev S1x32 : Shape := ⟨2, ![1, 32]⟩
abbrev S1 : Shape := ⟨1, ![1]⟩
abbrev S832x256 : Shape := ⟨2, ![832, 256]⟩
abbrev S16384x256 : Shape := ⟨2, ![16384, 256]⟩
abbrev S1x256 : Shape := ⟨2, ![1, 256]⟩
abbrev S_ : Shape := ⟨0, ![]⟩
abbrev S256x32 : Shape := ⟨2, ![256, 32]⟩
abbrev S16384x32 : Shape := ⟨2, ![16384, 32]⟩
abbrev S32x1 : Shape := ⟨2, ![32, 1]⟩
abbrev S16384x1 : Shape := ⟨2, ![16384, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x832, .f32⟩
  | .hbm, ⟨1, _⟩ => ⟨S256x832, .f32⟩
  | .hbm, ⟨2, _⟩ => ⟨S256, .f32⟩
  | .hbm, ⟨3, _⟩ => ⟨S32x256, .f32⟩
  | .hbm, ⟨4, _⟩ => ⟨S32, .f32⟩
  | .hbm, ⟨5, _⟩ => ⟨S1x32, .f32⟩
  | .hbm, ⟨6, _⟩ => ⟨S1, .f32⟩
  | .hbm, ⟨7, _⟩ => ⟨S832x256, .f32⟩
  | .hbm, ⟨8, _⟩ => ⟨S16384x256, .f32⟩
  | .hbm, ⟨9, _⟩ => ⟨S1x256, .f32⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S16384x256, .f32⟩
  | .hbm, ⟨14, _⟩ => ⟨S16384x256, .f32⟩
  | .hbm, ⟨15, _⟩ => ⟨S256x32, .f32⟩
  | .hbm, ⟨16, _⟩ => ⟨S16384x32, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S_, .f32⟩
  | .hbm, ⟨21, _⟩ => ⟨S16384x32, .f32⟩
  | .hbm, ⟨22, _⟩ => ⟨S16384x32, .f32⟩
  | .hbm, ⟨23, _⟩ => ⟨S32x1, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | _, _ => ⟨S16384x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S256x832_S832x256_1_0 : S256x832.Transposes [1, 0] S832x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S32x256_S256x32_1_0 : S32x256.Transposes [1, 0] S256x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  transposes_S1x32_S32x1_1_0 : S1x32.Transposes [1, 0] S32x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x832_S832x256_S16384x256_1_0_0_1_n_n_wf : DotDims.WF S16384x832 S832x256 S16384x256 [1] [0] [0] [1] [] []
  dot_S16384x256_S256x32_S16384x32_1_0_0_1_n_n_wf : DotDims.WF S16384x256 S256x32 S16384x32 [1] [0] [0] [1] [] []
  dot_S16384x32_S32x1_S16384x1_1_0_0_1_n_n_wf : DotDims.WF S16384x32 S32x1 S16384x1 [1] [0] [0] [1] [] []

variable [Facts₀]

def dot_S16384x832_S832x256_S16384x256_1_0_0_1_n_n : DotDims S16384x832 S832x256 S16384x256 where
  lhsContracting := [1]
  rhsContracting := [0]
  lhsNonContracting := [0]
  rhsNonContracting := [1]
  lhsBatch := []
  rhsBatch := []
  wf := dot_S16384x832_S832x256_S16384x256_1_0_0_1_n_n_wf
def dot_S16384x256_S256x32_S16384x32_1_0_0_1_n_n : DotDims S16384x256 S256x32 S16384x32 where
  lhsContracting := [1]
  rhsContracting := [0]
  lhsNonContracting := [0]
  rhsNonContracting := [1]
  lhsBatch := []
  rhsBatch := []
  wf := dot_S16384x256_S256x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Mlp.lean ====
/-
  The function both programs compute: a three-layer perceptron 832 → 256 → 32 → 1 over 16384 input rows, entry by
  entry on the extended reals.

    hidden1 n j = max (∑ i, x[n,i] · w1[j,i] + b1[j]) 0          (j < 256)
    hidden2 n k = max (∑ j, hidden1 n j · w2[k,j] + b2[k]) 0      (k < 32)
    score   n   = ∑ k, hidden2 n k · w3[0,k] + b3[0]

  The rectifier's floor is written as the value of the zero word, the constant both programs compare with, so that it is
  never evaluated. Each sum runs over its contraction index in increasing order on both sides; only the order of the two
  factors of a product differs between the programs, and multiplication of extended reals commutes.
-/
import Idealize.ShloMosaic.PureOps.Ideal
import Idealize.ShloMosaic.Lib.ValueIdx

noncomputable section

open scoped BigOperators

namespace Cert.Mlp

open Idealize.ShloMosaic Idealize.ShloMosaic.ValueIdx

/-- The value the rectifiers take the maximum with: the zero word read as an extended real. -/
abbrev floor0 : EReal := Ideal.ofBits .f32 0x00000000#32

variable (x : FVec Ideal ⟨2, ![16384, 832]⟩ .f32) (w1 : FVec Ideal ⟨2, ![256, 832]⟩ .f32) (b1 : FVec Ideal ⟨1, ![256]⟩ .f32)
  (w2 : FVec Ideal ⟨2, ![32, 256]⟩ .f32) (b2 : FVec Ideal ⟨1, ![32]⟩ .f32) (w3 : FVec Ideal ⟨2, ![1, 32]⟩ .f32)
  (b3 : FVec Ideal ⟨1, ![1]⟩ .f32)

/-- First hidden layer: unit `j` on input row `n`. -/
def hidden1 (n : Fin 16384) (j : Fin 256) : EReal :=
  max (∑ i : Fin 832, x (ix2 n i) * w1 (ix2 j i) + b1 (ix1 j)) floor0

/-- Second hidden layer: unit `k` on input row `n`. -/
def hidden2 (n : Fin 16384) (k : Fin 32) : EReal :=
  max (∑ j : Fin 256, hidden1 x w1 b1 n j * w2 (ix2 k j) + b2 (ix1 k)) floor0

/-- The output unit on input row `n`. -/
def score (n : Fin 16384) : EReal :=
  ∑ k : Fin 32, hidden2 x w1 b1 w2 b2 n k * w3 (ix2 (0 : Fin 1) k) + b3 (ix1 (0 : Fin 1))

/-- The result array, one column of 16384 scores. -/
def out : FVec Ideal ⟨2, ![16384, 1]⟩ .f32 := fun i => score x w1 b1 w2 b2 w3 b3 (i 0)

end Cert.Mlp

end
-- ==== Proof.RefMlp.lean ====
/-
  The reference computes the perceptron of `Mlp.lean`: its last stage, read entry by entry through its three products,
  two rectifiers and three bias rows, is `Mlp.out` of its seven arguments. Each product `a @ wᵀ` reads at `(n, j)` as
  `∑ i, a[n,i] · w[j,i]`; each bias is a row repeated down the 16384 rows; the rectifier is the maximum with a repeated
  zero.
-/
import proofs.«157997_g4870492914276_cont_8to1c4_782_22_alg».proof.Proof.Gen.ReferenceIdeal.Read
import proofs.«157997_g4870492914276_cont_8to1c4_782_22_alg».proof.Proof.Mlp

noncomputable section

open scoped BigOperators

namespace Cert.ReferenceIdeal.IsMlp

open Cert.ReferenceIdeal Cert.ReferenceIdeal.Read Idealize.ShloMosaic Idealize.ShloMosaic.ValueIdx

variable (x : FVec Ideal S16384x832 .f32) (w1 : FVec Ideal S256x832 .f32) (b1 : FVec Ideal S256 .f32)
  (w2 : FVec Ideal S32x256 .f32) (b2 : FVec Ideal S32 .f32) (w3 : FVec Ideal S1x32 .f32) (b3 : FVec Ideal S1 .f32)

/-- After the first rectifier the reference holds the first hidden layer. -/
theorem stage_hidden1 (n : Fin 16384) (j : Fin 256) :
    val_main_v5 (F := Ideal) x w1 b1 (ix2 n j) = Mlp.hidden1 x w1 b1 n j := by
  rw [val_main_v5_apply, val_main_v4_apply, val_main_v1_apply, val_main_v3_apply, val_main_v2_apply,
    val_main_call0_v0_apply, val_main_call0_cst_apply]
  unfold Mlp.hidden1
  show max (_ + _) _ = max (_ + _) _
  refine congrArg₂ max (congrArg₂ (· + ·) (Finset.sum_congr rfl fun i _ => ?_) ?_) rfl
  · rw [val_main_v0_apply]
    exact congrArg₂ (· * ·)
      (congrArg x (funext fun a => match a with | ⟨0, _⟩ => rfl | ⟨1, _⟩ => rfl))
      (congrArg w1 (funext fun a => match a with | ⟨0, _⟩ => rfl | ⟨1, _⟩ => rfl))
  · exact congrArg b1 (funext fun a => match a with | ⟨0, _⟩ => rfl)

/-- After the second rectifier it holds the second hidden layer. -/
theorem stage_hidden2 (n : Fin 16384) (k : Fin 32) :
    val_main_v11 (F := Ideal) x w1 b1 w2 b2 (ix2 n k) = Mlp.hidden2 x w1 b1 w2 b2 n k := by
  rw [val_main_v11_apply, val_main_v10_apply, val_main_v7_apply, val_main_v9_apply, val_main_v8_apply,
    val_main_call1_v0_apply, val_main_call1_cst_apply]
  unfold Mlp.hidden2
  show max (_ + _) _ = max (_ + _) _
  refine congrArg₂ max (congrArg₂ (· + ·) (Finset.sum_congr rfl fun j _ => ?_) ?_) rfl
  · rw [val_main_v6_apply, ← stage_hidden1 x w1 b1 n j]
    exact congrArg₂ (· * ·)
      (congrArg (val_main_v5 (F := Ideal) x w1 b1) (funext fun a => match a with | ⟨0, _⟩ => rfl | ⟨1, _⟩ => rfl))
      (congrArg w2 (funext fun a => match a with | ⟨0, _⟩ => rfl | ⟨1, _⟩ => rfl))
  · exact congrArg b2 (funext fun a => match a with | ⟨0, _⟩ => rfl)

/-- The reference's result is the perceptron's output column. -/
theorem result_eq : val_main_v16 (F := Ideal) x w1 b1 w2 b2 w3 b3 = Mlp.out x w1 b1 w2 b2 w3 b3 := by
  funext i
  obtain ⟨n, u, rfl⟩ : ∃ (n : Fin 16384) (u : Fin 1), i = ix2 n u := ⟨i 0, i 1, eq_ix2 i⟩
  rw [val_main_v16_apply, val_main_v13_apply, val_main_v15_apply, val_main_v14_apply]
  show _ + _ = Mlp.score x w1 b1 w2 b2 w3 b3 n
  unfold Mlp.score
  refine congrArg₂ (· + ·) (Finset.sum_congr rfl fun k _ => ?_) ?_
  · rw [val_main_v12_apply, ← stage_hidden2 x w1 b1 w2 b2 n k]
    exact congrArg₂ (· * ·)
      (congrArg (val_main_v11 (F := Ideal) x w1 b1 w2 b2) (funext fun a => match a with | ⟨0, _⟩ => rfl | ⟨1, _⟩ => rfl))
      (congrArg w3 (funext fun a => match a with
        | ⟨0, _⟩ => Fin.ext (by have := u.isLt; show u.val = 0; omega)
        | ⟨1, _⟩ => rfl))
  · exact congrArg b3 (funext fun a => match a with | ⟨0, _⟩ => rfl)

end Cert.ReferenceIdeal.IsMlp

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.LibAxis0.lean ====
/-
  Column forms along the first axis, read at coordinates; generic in the extents.

  • a sum of an `[a, b]` array along its FIRST axis (started from the zero word) reads, at column `q`, the sum over `k`
    of the entries `(k, q)`;
  • a `[1, a]` row turned into an `[a, 1]` column and repeated along `b` columns reads, at `(p, c)`, the row at `p`.
-/
import proofs.«157997_g4870492914276_cont_8to1c4_782_22_alg».proof.Proof.LibKeepdims
import Idealize.ShloMosaic.Lib.Pipeline.Value
import Idealize.ShloMosaic.Lib.ValueIdx
import Idealize.ShloMosaic.Lib.ValueLayout
import Idealize.ShloMosaic.PureOps.Ideal.Laws

open scoped BigOperators

namespace Cert.Axis0

open Idealize.ShloMosaic Idealize.ShloMosaic.ValueIdx

variable {α : Type}

/-- At the extended reals, the sum of an `[a, b]` array along its first axis (started from the zero word) reads, at
    column `q`, the sum over `k` of the entries `(k, q)`. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec 32) = 0x00000000#32) (q : Fin b) :
    multiReduction (F := Ideal) .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (funext fun ax => Fin.ext (by
      match ax with
      | ⟨0, _⟩ => rfl
      | ⟨1, _⟩ => rfl)))

/-- A `[1, a]` row transposed to an `[a, 1]` column and broadcast to `[a, b]` reads, at `(p, c)`, the row's entry `p`. -/
theorem rowAsColumn_apply {a b : ℕ} (v : (⟨2, ![1, a]⟩ : Shape).Idx → α)
    (ht : (⟨2, ![1, a]⟩ : Shape).Transposes [1, 0] ⟨2, ![a, 1]⟩) (hb : (⟨2, ![a, 1]⟩ : Shape).Broadcasts ⟨2, ![a, b]⟩)
    (p : Fin a) (c : Fin b) :
    broadcastTo ⟨2, ![a, b]⟩ (transpose ⟨2, ![a, 1]⟩ [1, 0] v ht) hb (ix2 p c) = v (ix2 (0 : Fin 1) p) :=
  (Cert.Keepdims.broadcastTo_a1_ab_apply _ hb p c).trans (transpose_ix2_apply v ht p (0 : Fin 1))

end Cert.Axis0
-- ==== Proof.Body.lean ====
/-
  What one grid step of the kernel stores, read at a column. The step holds an `[832, 4096]` panel `xt` of the
  transposed input, the transposed first weight matrix `w1t : [832, 256]`, the second `w2 : [32, 256]`, the biases and
  the last weights as rows `[1, 256]`, `[1, 32]`, `[1, 32]`, and the last bias `[1, 1]`. At column `q` of the panel it
  stores

    ∑ k, max (∑ j, w2[k,j] · max (∑ i, w1t[i,j] · xt[i,q] + b1[0,j]) 0 + b2[0,k]) 0 · w3[0,k] + b3[0,0].

  The two matrix products accumulate into zero, so each is the plain sum over its contraction index; the narrowing to
  sixteen bits before each product is the identity on extended reals; the biases and last weights are rows turned into
  columns and repeated along the panel's columns; the last sum is taken along the 32 rows.
-/
import proofs.«157997_g4870492914276_cont_8to1c4_782_22_alg».proof.Proof.Gen.KernelIdeal.Skeleton
import proofs.«157997_g4870492914276_cont_8to1c4_782_22_alg».proof.Proof.Mlp
import proofs.«157997_g4870492914276_cont_8to1c4_782_22_alg».proof.Proof.LibAxis0
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The first product: `w1tᵀ · xt`, contracted over the 832 rows of both operands -/

theorem lhs1_0 (i : S256x4096.Idx) (q : dot_S832x256_S832x4096_S256x4096_0_0_1_1_n_n.contr.Idx) :
    (dot_S832x256_S832x4096_S256x4096_0_0_1_1_n_n.lhsIdx i q 0).val = (q ⟨0, by decide⟩).val :=
  dot_S832x256_S832x4096_S256x4096_0_0_1_1_n_n.lhsIdx_val_of_single rfl i q
theorem lhs1_1 (i : S256x4096.Idx) (q : dot_S832x256_S832x4096_S256x4096_0_0_1_1_n_n.contr.Idx) :
    (dot_S832x256_S832x4096_S256x4096_0_0_1_1_n_n.lhsIdx i q 1).val = (i 0).val := by
  unfold DotDims.lhsIdx
  rw [dif_neg (show ¬(1 : Fin S832x256.rank) ∈ dot_S832x256_S832x4096_S256x4096_0_0_1_1_n_n.lhsBatch by decide), dif_pos (show (1 : Fin S832x256.rank) ∈ dot_S832x256_S832x4096_S256x4096_0_0_1_1_n_n.lhsNonContracting by decide)]
  rfl
theorem rhs1_0 (i : S256x4096.Idx) (q : dot_S832x256_S832x4096_S256x4096_0_0_1_1_n_n.contr.Idx) :
    (dot_S832x256_S832x4096_S256x4096_0_0_1_1_n_n.rhsIdx i q 0).val = (q ⟨0, by decide⟩).val :=
  dot_S832x256_S832x4096_S256x4096_0_0_1_1_n_n.rhsIdx_val_of_single rfl i q
theorem rhs1_1 (i : S256x4096.Idx) (q : dot_S832x256_S832x4096_S256x4096_0_0_1_1_n_n.contr.Idx) :
    (dot_S832x256_S832x4096_S256x4096_0_0_1_1_n_n.rhsIdx i q 1).val = (i 1).val := by
  unfold DotDims.rhsIdx
  rw [dif_neg (show ¬(1 : Fin S832x4096.rank) ∈ dot_S832x256_S832x4096_S256x4096_0_0_1_1_n_n.rhsBatch by decide), dif_pos (show (1 : Fin S832x4096.rank) ∈ dot_S832x256_S832x4096_S256x4096_0_0_1_1_n_n.rhsNonContracting by decide)]
  rfl

/-- Into a zero accumulator, the first product at `(j, q)` is `∑ i, l[i,j] · r[i,q]`. -/
theorem matmul1_apply (l : FVec Ideal S832x256 .bf16) (r : FVec Ideal S832x4096 .bf16) (j : Fin 256) (q : Fin 4096) :
    matmul dot_S832x256_S832x4096_S256x4096_0_0_1_1_n_n none l r (constant S256x4096 .f32 0x00000000#32) (ix2 j q)
      = ∑ i : Fin 832, l (ix2 i j) * r (ix2 i q) := by
  simp only [matmul]
  rw [Ideal.matmul_constant_zero_apply, ← Equiv.sum_comp (contrEquiv1 dot_S832x256_S832x4096_S256x4096_0_0_1_1_n_n 832 rfl rfl).symm]
  refine Finset.sum_congr rfl fun k _ => ?_
  have hk := contrEquiv1_symm_val dot_S832x256_S832x4096_S256x4096_0_0_1_1_n_n 832 rfl rfl k
  have el : dot_S832x256_S832x4096_S256x4096_0_0_1_1_n_n.lhsIdx (ix2 j q) ((contrEquiv1 dot_S832x256_S832x4096_S256x4096_0_0_1_1_n_n 832 rfl rfl).symm k) = ix2 k j := funext fun a => Fin.ext (by
    match a with
    | ⟨0, _⟩ => exact (lhs1_0 _ _).trans hk
    | ⟨1, _⟩ => exact lhs1_1 _ _)
  have er : dot_S832x256_S832x4096_S256x4096_0_0_1_1_n_n.rhsIdx (ix2 j q) ((contrEquiv1 dot_S832x256_S832x4096_S256x4096_0_0_1_1_n_n 832 rfl rfl).symm k) = ix2 k q := funext fun a => Fin.ext (by
    match a with
    | ⟨0, _⟩ => exact (rhs1_0 _ _).trans hk
    | ⟨1, _⟩ => exact rhs1_1 _ _)
  rw [el, er]

/-! ## The second product: `w2 · h`, contracted over the 256 hidden units -/

theorem lhs2_0 (i : S32x4096.Idx) (q : dot_S32x256_S256x4096_S32x4096_1_0_0_1_n_n.contr.Idx) :
    (dot_S32x256_S256x4096_S32x4096_1_0_0_1_n_n.lhsIdx i q 0).val = (i 0).val := by
  unfold DotDims.lhsIdx
  rw [dif_neg (show ¬(0 : Fin S32x256.rank) ∈ dot_S32x256_S256x4096_S32x4096_1_0_0_1_n_n.lhsBatch by decide), dif_pos (show (0 : Fin S32x256.rank) ∈ dot_S32x256_S256x4096_S32x4096_1_0_0_1_n_n.lhsNonContracting by decide)]
  rfl
theorem lhs2_1 (i : S32x4096.Idx) (q : dot_S32x256_S256x4096_S32x4096_1_0_0_1_n_n.contr.Idx) :
    (dot_S32x256_S256x4096_S32x4096_1_0_0_1_n_n.lhsIdx i q 1).val = (q ⟨0, by decide⟩).val :=
  dot_S32x256_S256x4096_S32x4096_1_0_0_1_n_n.lhsIdx_val_of_single rfl i q
theorem rhs2_0 (i : S32x4096.Idx) (q : dot_S32x256_S256x4096_S32x4096_1_0_0_1_n_n.contr.Idx) :
    (dot_S32x256_S256x4096_S32x4096_1_0_0_1_n_n.rhsIdx i q 0).val = (q ⟨0, by decide⟩).val :=
  dot_S32x256_S256x4096_S32x4096_1_0_0_1_n_n.rhsIdx_val_of_single rfl i q
theorem rhs2_1 (i : S32x4096.Idx) (q : dot_S32x256_S256x4096_S32x4096_1_0_0_1_n_n.contr.Idx) :
    (dot_S32x256_S256x4096_S32x4096_1_0_0_1_n_n.rhsIdx i q 1).val = (i 1).val := by
  unfold DotDims.rhsIdx
  rw [dif_neg (show ¬(1 : Fin S256x4096.rank) ∈ dot_S32x256_S256x4096_S32x4096_1_0_0_1_n_n.rhsBatch by decide), dif_pos (show (1 : Fin S256x4096.rank) ∈ dot_S32x256_S256x4096_S32x4096_1_0_0_1_n_n.rhsNonContracting by decide)]
  rfl

/-- Into a zero accumulator, the second product at `(k, q)` is `∑ j, l[k,j] · r[j,q]`. -/
theorem matmul2_apply (l : FVec Ideal S32x256 .bf16) (r : FVec Ideal S256x4096 .bf16) (k : Fin 32) (q : Fin 4096) :
    matmul dot_S32x256_S256x4096_S32x4096_1_0_0_1_n_n none l r (constant S32x4096 .f32 0x00000000#32) (ix2 k q)
      = ∑ j : Fin 256, l (ix2 k j) * r (ix2 j q) := by
  simp only [matmul]
  rw [Ideal.matmul_constant_zero_apply, ← Equiv.sum_comp (contrEquiv1 dot_S32x256_S256x4096_S32x4096_1_0_0_1_n_n 256 rfl rfl).symm]
  refine Finset.sum_congr rfl fun j _ => ?_
  have hk := contrEquiv1_symm_val dot_S32x256_S256x4096_S32x4096_1_0_0_1_n_n 256 rfl rfl j
  have el : dot_S32x256_S256x4096_S32x4096_1_0_0_1_n_n.lhsIdx (ix2 k q) ((contrEquiv1 dot_S32x256_S256x4096_S32x4096_1_0_0_1_n_n 256 rfl rfl).symm j) = ix2 k j := funext fun a => Fin.ext (by
    match a with
    | ⟨0, _⟩ => exact lhs2_0 _ _
    | ⟨1, _⟩ => exact (lhs2_1 _ _).trans hk)
  have er : dot_S32x256_S256x4096_S32x4096_1_0_0_1_n_n.rhsIdx (ix2 k q) ((contrEquiv1 dot_S32x256_S256x4096_S32x4096_1_0_0_1_n_n 256 rfl rfl).symm j) = ix2 j q := funext fun a => Fin.ext (by
    match a with
    | ⟨0, _⟩ => exact (rhs2_0 _ _).trans hk
    | ⟨1, _⟩ => exact rhs2_1 _ _)
  rw [el, er]

/-! ## The stored row at a column -/

variable (b1r : Vec Ideal S1x256 .f32) (b2r w3r : Vec Ideal S1x32 .f32) (xt : Vec Ideal S832x4096 .f32)
  (w1t : Vec Ideal S832x256 .f32) (w2 : Vec Ideal S32x256 .f32) (b3r : Vec Ideal S1x1 .f32)

/-- The first hidden layer of the panel's column `q`, unit `j`. -/
def act1 (j : Fin 256) (q : Fin 4096) : EReal :=
  max (∑ i : Fin 832, w1t (ix2 i j) * xt (ix2 i q) + b1r (ix2 (0 : Fin 1) j)) Mlp.floor0

/-- The second hidden layer of the panel's column `q`, unit `k`. -/
def act2 (k : Fin 32) (q : Fin 4096) : EReal :=
  max (∑ j : Fin 256, w2 (ix2 k j) * act1 b1r xt w1t j q + b2r (ix2 (0 : Fin 1) k)) Mlp.floor0

/-- The stored row at column `q`: the last layer's sum along the 32 units, plus the last bias. -/
theorem pay_apply (u : Fin 1) (q : Fin 4096) :
    k0_pay1 (F := Ideal) b1r b2r w3r xt w1t w2 b3r (ix2 u q)
      = ∑ k : Fin 32, act2 b1r b2r xt w1t w2 k q * w3r (ix2 (0 : Fin 1) k) + b3r (ix2 (0 : Fin 1) (0 : Fin 1)) := by
  unfold k0_pay1
  dsimp only
  rw [addf_apply, broadcast_apply, shapeCast_a_1a_apply, Axis0.colSum_apply]
  refine congrArg₂ (· + ·) (Finset.sum_congr rfl fun k _ => ?_) ?_
  · rw [mulf_apply, maximumf_apply, addf_apply, broadcast_apply, Axis0.rowAsColumn_apply, Axis0.rowAsColumn_apply, matmul2_apply]
    unfold act2
    refine congrArg₂ (· * ·) (congrArg₂ max (congrArg₂ (· + ·) (Finset.sum_congr rfl fun j _ => ?_) ?_) rfl) rfl
    · rw [truncf_apply, truncf_apply, maximumf_apply, addf_apply, broadcast_apply, Axis0.rowAsColumn_apply, matmul1_apply]
      unfold act1
      refine congrArg₂ (· * ·) rfl (congrArg₂ max (congrArg₂ (· + ·) (Finset.sum_congr rfl fun i _ => ?_) ?_) rfl)
      · rw [truncf_apply, truncf_apply, shapeCast_self, shapeCast_self]
      · rw [shapeCast_self]
    · rw [shapeCast_self]
  · unfold extractAt
    exact congrArg b3r (funext fun a => Fin.ext (by
      match a with
      | ⟨0, _⟩ => rfl
      | ⟨1, _⟩ => rfl))

end Cert.KernelIdeal.Body

end
-- ==== Proof.Bridge.lean ====
/-
  The stored row is the perceptron's score. A grid step's blocks are pieces of the arguments: the panel's column `q` is
  input row `n` (`xt[i,q] = x[n,i]`), `w1t` is the first weight matrix transposed, the bias rows are the bias vectors
  with a unit axis in front. With those readings the step's column entry

    ∑ k, max (∑ j, w2[k,j] · max (∑ i, w1t[i,j] · xt[i,q] + b1r[0,j]) 0 + b2r[0,k]) 0 · w3r[0,k] + b3r[0,0]

  is `Mlp.score … n`: term by term the same sums, with the two factors of the first two products exchanged
  (multiplication of extended reals is commutative).
-/
import proofs.«157997_g4870492914276_cont_8to1c4_782_22_alg».proof.Proof.Body

noncomputable section

open scoped BigOperators

namespace Cert.KernelIdeal.Bridge

open Cert.KernelIdeal Cert.KernelIdeal.Body Idealize.ShloMosaic Idealize.ShloMosaic.ValueIdx

variable (x : FVec Ideal S16384x832 .f32) (w1 : FVec Ideal S256x832 .f32) (b1 : FVec Ideal S256 .f32)
  (w2 : FVec Ideal S32x256 .f32) (b2 : FVec Ideal S32 .f32) (w3 : FVec Ideal S1x32 .f32) (b3 : FVec Ideal S1 .f32)
variable (b1r : Vec Ideal S1x256 .f32) (b2r w3r : Vec Ideal S1x32 .f32) (xt : Vec Ideal S832x4096 .f32)
  (w1t : Vec Ideal S832x256 .f32) (w2' : Vec Ideal S32x256 .f32) (b3r : Vec Ideal S1x1 .f32)

/-- With the blocks read as pieces of the arguments, the step's first hidden layer at column `q` is the perceptron's on
    input row `n`. -/
theorem act1_eq (n : Fin 16384) (q : Fin 4096) (hxt : ∀ i : Fin 832, xt (ix2 i q) = x (ix2 n i))
    (hw1 : ∀ (i : Fin 832) (j : Fin 256), w1t (ix2 i j) = w1 (ix2 j i))
    (hb1 : ∀ j : Fin 256, b1r (ix2 (0 : Fin 1) j) = b1 (ix1 j)) (j : Fin 256) :
    act1 b1r xt w1t j q = Mlp.hidden1 x w1 b1 n j := by
  unfold act1 Mlp.hidden1
  rw [hb1 j]
  refine congrArg₂ max (congrArg₂ (· + ·) (Finset.sum_congr rfl fun i _ => ?_) rfl) rfl
  rw [hxt i, hw1 i j]
  exact mul_comm _ _

/-- Likewise the second hidden layer. -/
theorem act2_eq (n : Fin 16384) (q : Fin 4096) (hxt : ∀ i : Fin 832, xt (ix2 i q) = x (ix2 n i))
    (hw1 : ∀ (i : Fin 832) (j : Fin 256), w1t (ix2 i j) = w1 (ix2 j i))
    (hb1 : ∀ j : Fin 256, b1r (ix2 (0 : Fin 1) j) = b1 (ix1 j)) (hw2 : w2' = w2)
    (hb2 : ∀ k : Fin 32, b2r (ix2 (0 : Fin 1) k) = b2 (ix1 k)) (k : Fin 32) :
    act2 b1r b2r xt w1t w2' k q = Mlp.hidden2 x w1 b1 w2 b2 n k := by
  unfold act2 Mlp.hidden2
  rw [hb2 k, hw2]
  refine congrArg₂ max (congrArg₂ (· + ·) (Finset.sum_congr rfl fun j _ => ?_) rfl) rfl
  rw [act1_eq x w1 b1 b1r xt w1t n q hxt hw1 hb1 j]
  exact mul_comm _ _

/-- So the stored row's entry at column `q` is the score of input row `n`. -/
theorem row_eq_score (n : Fin 16384) (q : Fin 4096) (hxt : ∀ i : Fin 832, xt (ix2 i q) = x (ix2 n i))
    (hw1 : ∀ (i : Fin 832) (j : Fin 256), w1t (ix2 i j) = w1 (ix2 j i))
    (hb1 : ∀ j : Fin 256, b1r (ix2 (0 : Fin 1) j) = b1 (ix1 j)) (hw2 : w2' = w2)
    (hb2 : ∀ k : Fin 32, b2r (ix2 (0 : Fin 1) k) = b2 (ix1 k)) (hw3 : w3r = w3)
    (hb3 : b3r (ix2 (0 : Fin 1) (0 : Fin 1)) = b3 (ix1 (0 : Fin 1))) :
    ∑ k : Fin 32, act2 b1r b2r xt w1t w2' k q * w3r (ix2 (0 : Fin 1) k) + b3r (ix2 (0 : Fin 1) (0 : Fin 1))
      = Mlp.score x w1 b1 w2 b2 w3 b3 n := by
  unfold Mlp.score
  rw [hb3, hw3]
  refine congrArg₂ (· + ·) (Finset.sum_congr rfl fun k _ => ?_) rfl
  rw [act2_eq x w1 b1 w2 b2 b1r b2r xt w1t w2' n q hxt hw1 hb1 hw2 hb2 k]

end Cert.KernelIdeal.Bridge

end
-- ==== Proof.Region.lean ====
/-
  The kernel's one region, read as values. Before it the program transposes `x` and `w1` and puts a unit axis in front of
  the three bias vectors; the region then runs four grid steps, step `t` on columns `4096·t … 4096·t + 4095` of the
  transposed input, with every other operand whole. So at step `t`, column `q` of the panel is input row
  `n = 4096·t + q`, and what the step writes back at column `q` of its `[1, 4096]` block is that row's score
  (`Bridge.row_eq_score`). The four blocks tile the `[1, 16384]` result array, which therefore ends holding the score of
  input row `n` at `(0, n)`.
-/
import proofs.«157997_g4870492914276_cont_8to1c4_782_22_alg».proof.Proof.Gen.KernelIdeal.Frame
import proofs.«157997_g4870492914276_cont_8to1c4_782_22_alg».proof.Proof.Bridge
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx

variable (m : (ℓ : Loc nD τ sig) → Buf (Elt Ideal) ℓ) (ρ : Dev nD → PrngReg)

/-! ## The seven arguments, as launched -/

abbrev argX (c : Dev nD) : FVec Ideal S16384x832 .f32 := m ((c : Thread nD τ).loc main_arg0)
abbrev argW1 (c : Dev nD) : FVec Ideal S256x832 .f32 := m ((c : Thread nD τ).loc main_arg1)
abbrev argB1 (c : Dev nD) : FVec Ideal S256 .f32 := m ((c : Thread nD τ).loc main_arg2)
abbrev argW2 (c : Dev nD) : FVec Ideal S32x256 .f32 := m ((c : Thread nD τ).loc main_arg3)
abbrev argB2 (c : Dev nD) : FVec Ideal S32 .f32 := m ((c : Thread nD τ).loc main_arg4)
abbrev argW3 (c : Dev nD) : FVec Ideal S1x32 .f32 := m ((c : Thread nD τ).loc main_arg5)
abbrev argB3 (c : Dev nD) : FVec Ideal S1 .f32 := m ((c : Thread nD τ).loc main_arg6)

/-! ## The arrays the region finds: the host operations before it -/

/-- The region's first operand is `x` transposed. -/
theorem v0_eq (c : Dev nD) : (V m c main_v0 : FVec Ideal S832x16384 .f32)
    = transpose S832x16384 [1, 0] (argX m c) transposes_S16384x832_S832x16384_1_0 := by
  show StableHlo.after hostOps0 (fun b => m (c, b)) (Proc.devRef .tc main_v0) = _
  after_results <;> rfl
/-- Its second is `w1` transposed. -/
theorem v1_eq (c : Dev nD) : (V m c main_v1 : FVec Ideal S832x256 .f32)
    = transpose S832x256 [1, 0] (argW1 m c) transposes_S256x832_S832x256_1_0 := by
  show StableHlo.after hostOps0 (fun b => m (c, b)) (Proc.devRef .tc main_v1) = _
  after_results <;> rfl
/-- The bias rows are the bias vectors with a unit axis in front. -/
theorem v2_eq (c : Dev nD) : (V m c main_v2 : FVec Ideal S1x256 .f32)
    = shapeCast S1x256 (argB1 m c) shapeCasts_S256_S1x256 := by
  show StableHlo.after hostOps0 (fun b => m (c, b)) (Proc.devRef .tc main_v2) = _
  after_results <;> rfl
theorem v3_eq (c : Dev nD) : (V m c main_v3 : FVec Ideal S1x32 .f32)
    = shapeCast S1x32 (argB2 m c) shapeCasts_S32_S1x32 := by
  show StableHlo.after hostOps0 (fun b => m (c, b)) (Proc.devRef .tc main_v3) = _
  after_results <;> rfl
theorem v4_eq (c : Dev nD) : (V m c main_v4 : FVec Ideal S1x1 .f32)
    = shapeCast S1x1 (argB3 m c) shapeCasts_S1_S1x1 := by
  show StableHlo.after hostOps0 (fun b => m (c, b)) (Proc.devRef .tc main_v4) = _
  after_results <;> rfl

/-! ## The blocks -/

theorem hz : (![0, 0] : Fin 2 → Nat) = fun _ => 0 := funext fun a => by fin_cases a <;> rfl

/-- The index maps over the grid: the first operand's and the result's blocks move along the columns with the step,
    every other operand's block is the whole array. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Column `q` of step `t`'s panel is input row `4096·t + q`. -/
theorem xt_apply (c : Dev nD) (t : Fin cfg0.N) (i : Fin 832) (q : Fin 4096) (hn : t.val * 4096 + q.val < 16384) :
    (iblk m c 0 t : Vec Ideal S832x4096 .f32) (ix2 i q) = argX m c (ix2 ⟨t.val * 4096 + q.val, hn⟩ i) := by
  obtain ⟨e0, e1, -⟩ := idx_facts t
  unfold iblk
  rw [View.read_apply]
  refine (congrFun (v0_eq m c) _).trans ?_
  exact transpose_apply [1, 0] (argX m c) transposes_S16384x832_S832x16384_1_0 _ _ (fun b => match b with
    | ⟨0, _⟩ => by
      show i.val = win0_0.index t (0 : Fin 2) * 832 + 1 * i.val
      rw [e0]; omega
    | ⟨1, _⟩ => by
      show t.val * 4096 + q.val = win0_0.index t (1 : Fin 2) * 4096 + 1 * q.val
      rw [e1]; omega)

/-- The first weight block is `w1` transposed. -/
theorem w1t_apply (c : Dev nD) (t : Fin cfg0.N) (i : Fin 832) (j : Fin 256) :
    (iblk m c 1 t : Vec Ideal S832x256 .f32) (ix2 i j) = argW1 m c (ix2 j i) := by
  obtain ⟨-, -, e0, e1, -⟩ := idx_facts t
  unfold iblk
  rw [View.read_apply]
  refine (congrFun (v1_eq m c) _).trans ?_
  exact transpose_apply [1, 0] (argW1 m c) transposes_S256x832_S832x256_1_0 _ _ (fun b => match b with
    | ⟨0, _⟩ => by
      show i.val = win0_1.index t (0 : Fin 2) * 832 + 1 * i.val
      rw [e0]; omega
    | ⟨1, _⟩ => by
      show j.val = win0_1.index t (1 : Fin 2) * 256 + 1 * j.val
      rw [e1]; omega)

/-- The first bias row. -/
theorem b1r_apply (c : Dev nD) (t : Fin cfg0.N) (j : Fin 256) :
    (iblk m c 2 t : Vec Ideal S1x256 .f32) (ix2 (0 : Fin 1) j) = argB1 m c (ix1 j) := by
  obtain ⟨-, -, -, -, e0, e1, -⟩ := idx_facts t
  unfold iblk
  rw [View.read_apply]
  refine (congrFun (v2_eq m c) _).trans ?_
  refine shapeCast_apply (argB1 m c) shapeCasts_S256_S1x256 _ _ ?_
  rw [Shape.rowMajor_val_two, Shape.rowMajor_val_one]
  show j.val = (win0_2.index t (0 : Fin 2) * 1 + 1 * 0) * 256 + (win0_2.index t (1 : Fin 2) * 256 + 1 * j.val)
  rw [e0, e1]; omega

/-- The second weight block is `w2`. -/
theorem w2_eq (c : Dev nD) (t : Fin cfg0.N) : (iblk m c 3 t : Vec Ideal S32x256 .f32) = argW2 m c := by
  obtain ⟨-, -, -, -, -, -, e0, e1, -⟩ := idx_facts t
  funext y
  unfold iblk
  rw [View.read_apply]
  refine (congrArg (V m c main_arg3) (funext fun a => Fin.ext ?_)).trans (congrFun (V_main_arg3 m c) y)
  match a with
  | ⟨0, _⟩ => show win0_3.index t (0 : Fin 2) * 32 + 1 * (y 0).val = (y 0).val; rw [e0]; omega
  | ⟨1, _⟩ => show win0_3.index t (1 : Fin 2) * 256 + 1 * (y 1).val = (y 1).val; rw [e1]; omega

/-- The second bias row. -/
theorem b2r_apply (c : Dev nD) (t : Fin cfg0.N) (k : Fin 32) :
    (iblk m c 4 t : Vec Ideal S1x32 .f32) (ix2 (0 : Fin 1) k) = argB2 m c (ix1 k) := by
  obtain ⟨-, -, -, -, -, -, -, -, e0, e1, -⟩ := idx_facts t
  unfold iblk
  rw [View.read_apply]
  refine (congrFun (v3_eq m c) _).trans ?_
  refine shapeCast_apply (argB2 m c) shapeCasts_S32_S1x32 _ _ ?_
  rw [Shape.rowMajor_val_two, Shape.rowMajor_val_one]
  show k.val = (win0_4.index t (0 : Fin 2) * 1 + 1 * 0) * 32 + (win0_4.index t (1 : Fin 2) * 32 + 1 * k.val)
  rw [e0, e1]; omega

/-- The last weight block is `w3`. -/
theorem w3r_eq (c : Dev nD) (t : Fin cfg0.N) : (iblk m c 5 t : Vec Ideal S1x32 .f32) = argW3 m c := by
  obtain ⟨-, -, -, -, -, -, -, -, -, -, e0, e1, -⟩ := idx_facts t
  funext y
  unfold iblk
  rw [View.read_apply]
  refine (congrArg (V m c main_arg5) (funext fun a => Fin.ext ?_)).trans (congrFun (V_main_arg5 m c) y)
  match a with
  | ⟨0, _⟩ => show win0_5.index t (0 : Fin 2) * 1 + 1 * (y 0).val = (y 0).val; rw [e0]; omega
  | ⟨1, _⟩ => show win0_5.index t (1 : Fin 2) * 32 + 1 * (y 1).val = (y 1).val; rw [e1]; omega

/-- The last bias. -/
theorem b3r_apply (c : Dev nD) (t : Fin cfg0.N) :
    (iblk m c 6 t : Vec Ideal S1x1 .f32) (ix2 (0 : Fin 1) (0 : Fin 1)) = argB3 m c (ix1 (0 : Fin 1)) := by
  obtain ⟨-, -, -, -, -, -, -, -, -, -, -, -, e0, e1, -⟩ := idx_facts t
  unfold iblk
  rw [View.read_apply]
  refine (congrFun (v4_eq m c) _).trans ?_
  refine shapeCast_apply (argB3 m c) shapeCasts_S1_S1x1 _ _ ?_
  rw [Shape.rowMajor_val_two, Shape.rowMajor_val_one]
  show 0 = (win0_6.index t (0 : Fin 2) * 1 + 1 * 0) * 1 + (win0_6.index t (1 : Fin 2) * 1 + 1 * 0)
  rw [e0, e1]

/-! ## What a step writes back, and the array after the region -/

/-- The row of scores: entry `(0, n)` is the perceptron's output on input row `n`. -/
def scoreRow (c : Dev nD) : FVec Ideal S1x16384 .f32 := fun i =>
  Mlp.score (argX m c) (argW1 m c) (argB1 m c) (argW2 m c) (argB2 m c) (argW3 m c) (argB3 m c) (i 1)

/-- Step `t` writes back block `t` of the row of scores. -/
theorem flushed_eq (c : Dev nD) (t : Fin cfg0.N) :
    (dats m 0 c).flushed 7 t = ((cfg0.win 7).blk t).view.read (Elt Ideal) (scoreRow m c) := by
  show (cfg0.win 7).cut (grid0.coords t) ((dats m 0 c).after 7 t) = _
  rw [after0_7]
  unfold out0_7
  rw [View.canon_unit_zero hz]
  simp only [View.ld_unit_zero (S := S1x256) hz, View.ld_unit_zero (S := S1x32) hz, View.ld_unit_zero (S := S832x4096) hz,
    View.ld_unit_zero (S := S832x256) hz, View.ld_unit_zero (S := S32x256) hz, View.ld_unit_zero (S := S1x1) hz]
  obtain ⟨-, -, -, -, -, -, -, -, -, -, -, -, -, -, e0, e1⟩ := idx_facts t
  have ht : t.val < 4 := by
    have h := t.isLt
    have hN : cfg0.N = 4 := N_0
    omega
  funext y
  obtain ⟨u, q, rfl⟩ : ∃ (u : Fin 1) (q : Fin 4096), y = ix2 u q := ⟨y 0, y 1, eq_ix2 y⟩
  have hq : q.val < 4096 := q.isLt
  have hn : t.val * 4096 + q.val < 16384 := by omega
  show k0_pay1 (F := Ideal) (iblk m c 2 t) (iblk m c 4 t) (iblk m c 5 t) (iblk m c 0 t) (iblk m c 1 t) (iblk m c 3 t) (iblk m c 6 t) (ix2 u q)
    = scoreRow m c (((cfg0.win 7).blk t).view.emb (ix2 u q))
  refine (Body.pay_apply (iblk m c 2 t) (iblk m c 4 t) (iblk m c 5 t) (iblk m c 0 t) (iblk m c 1 t) (iblk m c 3 t) (iblk m c 6 t) u q).trans ?_
  refine (Bridge.row_eq_score (argX m c) (argW1 m c) (argB1 m c) (argW2 m c) (argB2 m c) (argW3 m c) (argB3 m c)
    (iblk m c 2 t) (iblk m c 4 t) (iblk m c 5 t) (iblk m c 0 t) (iblk m c 1 t) (iblk m c 3 t) (iblk m c 6 t)
    ⟨t.val * 4096 + q.val, hn⟩ q (fun i => xt_apply m c t i q hn) (fun i j => w1t_apply m c t i j) (fun j => b1r_apply m c t j)
    (w2_eq m c t) (fun k => b2r_apply m c t k) (w3r_eq m c t) (b3r_apply m c t)).trans ?_
  unfold scoreRow
  refine congrArg (Mlp.score (argX m c) (argW1 m c) (argB1 m c) (argW2 m c) (argB2 m c) (argW3 m c) (argB3 m c)) (Fin.ext ?_)
  show t.val * 4096 + q.val = win0_7.index t (1 : Fin 2) * 4096 + 1 * q.val
  rw [e1]; omega

/-- An index of the result array is in step `t`'s block iff each coordinate is in the block's range on its axis. -/
theorem mem_blk (t : Fin cfg0.N) (i : S1x16384.Idx) :
    i ∈ ((cfg0.win 7).blk t).view.set ↔ ∀ a : Fin 2, win0_7.index t a * S1x4096.size a ≤ (i a).val ∧ (i a).val < win0_7.index t a * S1x4096.size a + S1x4096.size a := by
  show i ∈ ((View.whole main_v5).slice (win0_7.rect t)).set ↔ _
  rw [View.set_slice_whole, Rect.mem_set_unit]
  exact Iff.rfl

/-- Every column `n` of the result array is in the block of step `n / 4096`. -/
theorem covered (i : S1x16384.Idx) : ∃ t : Fin cfg0.N, (cfg0.win 7).flush t = true ∧ i ∈ ((cfg0.win 7).blk t).view.set := by
  have hi0 : (i 0).val < 1 := (i 0).isLt
  have hi1 : (i 1).val < 16384 := (i 1).isLt
  have hN : cfg0.N = 4 := N_0
  refine ⟨⟨(i 1).val / 4096, by rw [hN]; omega⟩, flush0_7 _, ?_⟩
  rw [mem_blk]
  obtain ⟨-, -, -, -, -, -, -, -, -, -, -, -, -, -, e0, e1⟩ := idx_facts ⟨(i 1).val / 4096, by rw [hN]; omega⟩
  intro a
  match a with
  | ⟨0, _⟩ =>
    show win0_7.index _ (0 : Fin 2) * 1 ≤ (i 0).val ∧ (i 0).val < win0_7.index _ (0 : Fin 2) * 1 + 1
    rw [e0]; omega
  | ⟨1, _⟩ =>
    show win0_7.index _ (1 : Fin 2) * 4096 ≤ (i 1).val ∧ (i 1).val < win0_7.index _ (1 : Fin 2) * 4096 + 4096
    rw [e1]
    show (i 1).val / 4096 * 4096 ≤ (i 1).val ∧ (i 1).val < (i 1).val / 4096 * 4096 + 4096
    omega

/-- After the region the result array is the row of scores. -/
theorem final (c : Dev nD) : (dats m 0 c).arrAt 7 cfg0.N = scoreRow m c :=
  (dats m 0 c).arrAt_eq_of_cover 7 (scoreRow m c) (fun t _ => flushed_eq m c t) covered

end Cert.KernelIdeal.Region

end
-- ==== Proof.Result.lean ====
/-
  The kernel's result and its run. After the region one host operation lays the `[1, 16384]` row of scores out as a
  `[16384, 1]` column: entry `(n, 0)` of the column is entry `(0, n)` of the row, both at row-major position `n`. So the
  kernel program ends with its result array at `Mlp.out` of its seven arguments, and with the arguments unchanged.
-/
import proofs.«157997_g4870492914276_cont_8to1c4_782_22_alg».proof.Proof.Region

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Region Idealize.ShloMosaic.ValueIdx

variable (m : (ℓ : Loc nD τ sig) → Buf (Elt Ideal) ℓ) (ρ : Dev nD → PrngReg)

/-- The perceptron's output column on the arguments as launched. -/
abbrev column (c : Dev nD) : FVec Ideal S16384x1 .f32 :=
  Mlp.out (argX m c) (argW1 m c) (argB1 m c) (argW2 m c) (argB2 m c) (argW3 m c) (argB3 m c)

/-- After the host operation that follows the region, the result array is the output column. -/
theorem column_eq (c : Dev nD) :
    (Pipeline.afterTail₀ cfgs (dats m) 0 (V0 m) [hostOps1] c main_v6 : FVec Ideal S16384x1 .f32) = column m c := by
  unfold Pipeline.afterTail₀
  show StableHlo.after hostOps1 _ (Proc.devRef .tc main_v6) = _
  after_results
  have hw : (Pipeline.withArrays (cfgs 0).spec c (V0 m c) (fun w => (dats m 0 c).arrAt w (cfgs 0).N)
      (Proc.tc.devRef main_v5) : FVec Ideal S1x16384 .f32) = scoreRow m c :=
    (Pipeline.withArrays_arr spec0 launch0.win.arr_inj c _ _ 7).trans (final m c)
  funext i
  show shapeCast S16384x1 (Pipeline.withArrays (cfgs 0).spec c (V0 m c) (fun w => (dats m 0 c).arrAt w (cfgs 0).N)
      (Proc.tc.devRef main_v5) : FVec Ideal S1x16384 .f32) shapeCasts_S1x16384_S16384x1 i = _
  refine (congrArg (fun A : FVec Ideal S1x16384 .f32 => shapeCast S16384x1 A shapeCasts_S1x16384_S16384x1 i) hw).trans ?_
  refine (shapeCast_apply (scoreRow m c) shapeCasts_S1x16384_S16384x1 i (ix2 (0 : Fin 1) (i 0)) ?_).trans rfl
  rw [Shape.rowMajor_val_two, Shape.rowMajor_val_two]
  show 0 * 16384 + (i 0).val = (i 0).val * 1 + (i 1).val
  have h1 : (i 1).val < 1 := (i 1).isLt
  omega

/-- Every weakly fair execution of the kernel program terminates with the result array at the output column and the
    seven arguments as launched. -/
theorem run : θ_run defs (onTc (τ := τ) (main (F := Ideal))) ⟨m, fun _ => 0, ρ⟩ fun r => ∀ c : Dev nD,
      r.2.mem ((c.tc : Thread nD τ).loc main_v6) = column m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v6 (Pipeline.mem_restRefs_of main_v6 (by decide) (by decide))).trans (column_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Result

end
-- ==== Proof.lean ====
/- A three-layer perceptron 832 → 256 → 32 → 1 over 16384 input rows, computed by one kernel region in the transposed
   orientation (four grid steps of 4096 columns each, the weights resident) against the plain reference
   `relu(relu(x·w1ᵀ + b1)·w2ᵀ + b2)·w3ᵀ + b3`.

   Over the extended reals both programs compute `Mlp.out` (Proof/Mlp.lean): the narrowing to sixteen bits before the
   kernel's products is the identity, each product into a zero accumulator is the plain sum over its contraction index,
   and the two sides differ only in the order of the two factors of the first two products, which commute. No
   finiteness of the inputs is used.
     • the reference's last stage is `Mlp.out`                      — Proof/RefMlp.lean
     • a grid step's stored row at a column                          — Proof/Body.lean
     • that entry is the score of the column's input row             — Proof/Bridge.lean
     • the blocks as pieces of the arguments, the four write-backs
       tiling the result row                                         — Proof/Region.lean
     • the row laid out as the result column; the kernel's run       — Proof/Result.lean
   The three frames are the generated ones (the reference's is its run with the result dropped); the idealization
   rewrote nothing, so there is nothing to preserve. -/
import proofs.«157997_g4870492914276_cont_8to1c4_782_22_alg».proof.Defs
import proofs.«157997_g4870492914276_cont_8to1c4_782_22_alg».proof.Proof.Gen.Kernel
import proofs.«157997_g4870492914276_cont_8to1c4_782_22_alg».proof.Proof.Gen.Kernel.Skeleton
import proofs.«157997_g4870492914276_cont_8to1c4_782_22_alg».proof.Proof.Gen.Kernel.Launch
import proofs.«157997_g4870492914276_cont_8to1c4_782_22_alg».proof.Proof.Gen.Kernel.Points
import proofs.«157997_g4870492914276_cont_8to1c4_782_22_alg».proof.Proof.Gen.Kernel.Frame
import proofs.«157997_g4870492914276_cont_8to1c4_782_22_alg».proof.Proof.Gen.KernelIdeal
import proofs.«157997_g4870492914276_cont_8to1c4_782_22_alg».proof.Proof.Gen.KernelIdeal.Skeleton
import proofs.«157997_g4870492914276_cont_8to1c4_782_22_alg».proof.Proof.Gen.KernelIdeal.Launch
import proofs.«157997_g4870492914276_cont_8to1c4_782_22_alg».proof.Proof.Gen.KernelIdeal.Points
import proofs.«157997_g4870492914276_cont_8to1c4_782_22_alg».proof.Proof.Gen.KernelIdeal.Frame
import proofs.«157997_g4870492914276_cont_8to1c4_782_22_alg».proof.Proof.Gen.ReferenceIdeal
import proofs.«157997_g4870492914276_cont_8to1c4_782_22_alg».proof.Proof.Gen.ReferenceIdeal.Run
import proofs.«157997_g4870492914276_cont_8to1c4_782_22_alg».proof.Proof.Gen.ReferenceIdeal.Read
import proofs.«157997_g4870492914276_cont_8to1c4_782_22_alg».proof.Proof.Gen.Pre_finite_inputs
import proofs.«157997_g4870492914276_cont_8to1c4_782_22_alg».proof.Proof.RefMlp
import proofs.«157997_g4870492914276_cont_8to1c4_782_22_alg».proof.Proof.Result
import Idealize.ShloMosaic.Adequacy
import Idealize.ShloMosaic.Init

noncomputable section

namespace Cert.Proof

open Idealize.ShloMosaic Idealize.SL.Sem Cert.Kernel

/-- The kernel and the reference, from memories agreeing on the arguments, both end with the result at `Mlp.out` of the
    arguments. -/
theorem algebraic : Cert.algebraic_KernelIdeal_ReferenceIdeal := by
  intro m ρ m' ρ' _ hagree
  refine ⟨fun c => Cert.KernelIdeal.Result.column m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v16_eq, Cert.ReferenceIdeal.IsMlp.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
